-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32x1 .f32) (main_arg6 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg5
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x32 .f32) (main_arg4 : FVec F S32 .f32) (main_arg5 : FVec F S32x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x128 : Shape := ⟨2, ![5000, 128]⟩
abbrev S5000x32 : Shape := ⟨2, ![5000, 32]⟩
abbrev S3300000x32 : Shape := ⟨2, ![3300000, 32]⟩
abbrev S1x32 : Shape := ⟨2, ![1, 32]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 71
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x32, .f32⟩
  | .hbm, ⟨52, _⟩ => ⟨S3300000x1, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x32, .f32⟩
  | .hbm, ⟨62, _⟩ => ⟨S3300000x32, .f32⟩
  | .hbm, ⟨63, _⟩ => ⟨S3300000x32, .f32⟩
  | .hbm, ⟨64, _⟩ => ⟨S_, .f32⟩
  | .hbm, ⟨65, _⟩ => ⟨S100000x32, .f32⟩
  | .hbm, ⟨66, _⟩ => ⟨S3300000x1, .i32⟩
  | .hbm, ⟨67, _⟩ => ⟨S100000x32, .f32⟩
  | .hbm, ⟨68, _⟩ => ⟨S1x32, .f32⟩
  | .hbm, ⟨69, _⟩ => ⟨S1x1, .f32⟩
  | .hbm, ⟨70, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x1, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S1_S1x1 : S1.ShapeCasts S1x1
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x32_S5000x32_1_0_0_1_n_n_wf : DotDims.WF S5000x128 S128x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x32, .f32⟩
  | .hbm, ⟨52, _⟩ => ⟨S3300000x1, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x32, .f32⟩
  | .hbm, ⟨62, _⟩ => ⟨S3300000x32, .f32⟩
  | .hbm, ⟨63, _⟩ => ⟨S3300000x32, .f32⟩
  | .hbm, ⟨64, _⟩ => ⟨S_, .f32⟩
  | .hbm, ⟨65, _⟩ => ⟨S100000x32, .f32⟩
  | .hbm, ⟨66, _⟩ => ⟨S3300000x1, .i32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .f32⟩
  | .hbm, ⟨72, _⟩ => ⟨S100000x32, .f32⟩
  | .hbm, ⟨73, _⟩ => ⟨S100000x32, .f32⟩
  | .hbm, ⟨74, _⟩ => ⟨S100000x1, .f32⟩
  | .hbm, ⟨75, _⟩ => ⟨S1x1, .f32⟩
  | .hbm, ⟨76, _⟩ => ⟨S100000x1, .f32⟩
  | .hbm, ⟨77, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x1_S100000x1_1_0_0_1_n_n_wf : DotDims.WF S100000x32 S32x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«143941_j35115652612671_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.Projection.lean ====
/-
  The first kernel region: the feature projection h = x · W1.

  The node features x : [100000, 128] are worked in 20 blocks of 5000 consecutive rows. At point t the kernel holds
  rows 5000 t … 5000 t + 4999 of x and the whole weight matrix W1 : [128, 32], and writes their product, accumulated
  from zero, as rows 5000 t … 5000 t + 4999 of h : [100000, 32]. A row of a product depends only on the same row of the
  left operand, so entry (p, q) of block t's product is entry (5000 t + p, q) of the whole product x · W1; the blocks
  tile h, so after the last point h is the whole product (narrowing the operands on the way in is the identity on the
  extended reals).
-/
import proofs.«143941_j35115652612671_1_alg».proof.Proof.Gen.KernelIdeal.Frame
import proofs.«143941_j35115652612671_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Projection

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The whole product x · W1, as the host computes it. -/
def proj (x : FVec Ideal S100000x128 .f32) (w : FVec Ideal S128x32 .f32) : FVec Ideal S100000x32 .f32 :=
  Host.dotGeneral (DotDims.plain 100000 128 32) none x w

theorem hz : (![0, 0] : Fin 2 → Nat) = fun _ => 0 := funext fun a => by fin_cases a <;> rfl

/-- Entry (p, q) of a block's product is entry (r, q) of the whole product when the block's row p is the array's row r. -/
theorem pay_entry (x0 : Vec Ideal S5000x128 .f32) (x1 : Vec Ideal S128x32 .f32)
    (X : FVec Ideal S100000x128 .f32) (w : FVec Ideal S128x32 .f32)
    (p : Fin 5000) (r : Fin 100000) (q : Fin 32)
    (h0 : ∀ k : Fin 128, x0 (ix2 p k) = X (ix2 r k)) (h1 : x1 = w) :
    k0_pay1 x0 x1 (ix2 p q) = proj X w (ix2 r q) := by
  subst h1
  unfold k0_pay1 proj
  exact Cert.LibDenseLayer.product_entry dot_S5000x128_S128x32_S5000x32_1_0_0_1_n_n rfl (DotDims.plain 100000 128 32) rfl
    bitsLt_bf16_f32 x0 X x1 p r h0 q

/-- The index maps over the grid: the feature window and the result window sit at block row t, column block 0; the weight
    window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the feature block at point t is row 5000 t + p of the feature array. -/
theorem rows_read (c : Dev nD) (t : Fin cfg0.N) (p : Fin 5000) (k : Fin 128) (r : Fin 100000) (hr : r.val = 5000 * t.val + p.val) :
    (iblk0 V c 0 t : Vec Ideal S5000x128 .f32) (ix2 p k) = (V c main_arg0 : FVec Ideal S100000x128 .f32) (ix2 r k) := by
  obtain ⟨e0, e1, -⟩ := idx_facts t
  unfold iblk0
  rw [View.read_apply]
  show V c main_arg0 (((cfg0.win 0).blk t).view.emb (ix2 p k)) = V c main_arg0 (ix2 r k)
  refine congrArg _ ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight window's block is the whole weight matrix at every point. -/
theorem weights_read (c : Dev nD) (t : Fin cfg0.N) :
    (iblk0 V c 1 t : Vec Ideal S128x32 .f32) = (V c main_arg3 : FVec Ideal S128x32 .f32) := by
  obtain ⟨-, -, e2, e3, -⟩ := idx_facts t
  funext y
  unfold iblk0
  rw [View.read_apply]
  show V c main_arg3 (((cfg0.win 1).blk t).view.emb y) = V c main_arg3 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- What point t writes back is block t of the whole product of the arrays the region finds. -/
theorem flushed_eq (c : Dev nD) (t : Fin cfg0.N) :
    (dat0 V c).flushed 2 t = ((cfg0.win 2).blk t).view.read (Elt Ideal) (proj (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x32) hz]
  obtain ⟨e0, e1, e2, e3, e4, e5⟩ := idx_facts t
  have hN : t.val < 20 := lt_of_lt_of_eq t.isLt N_0
  funext j
  have hj0 : (j 0).val < 5000 := (j 0).isLt
  have hj1 : (j 1).val < 32 := (j 1).isLt
  have hj : (j : S5000x32.Idx) = ix2 (⟨(j 0).val, hj0⟩ : Fin 5000) (⟨(j 1).val, hj1⟩ : Fin 32) := by
    funext a; match a with | ⟨0, _⟩ => rfl | ⟨1, _⟩ => rfl
  show k0_pay1 (iblk0 V c 0 t) (iblk0 V c 1 t) j = proj (V c main_arg0) (V c main_arg3) (((cfg0.win 2).blk t).view.emb j)
  have hemb : ((cfg0.win 2).blk t).view.emb j
      = ix2 (⟨5000 * t.val + (j 0).val, by omega⟩ : Fin 100000) (⟨(j 1).val, hj1⟩ : Fin 32) := by
    funext a; apply Fin.ext
    match a with
    | ⟨0, _⟩ => show win0_2.index t (0 : Fin 2) * 5000 + 1 * (j 0).val = 5000 * t.val + (j 0).val; omega
    | ⟨1, _⟩ => show win0_2.index t (1 : Fin 2) * 32 + 1 * (j 1).val = (j 1).val; omega
  refine (congrArg (k0_pay1 (iblk0 V c 0 t) (iblk0 V c 1 t)) hj).trans ?_
  rw [hemb]
  exact pay_entry (iblk0 V c 0 t) (iblk0 V c 1 t) (V c main_arg0) (V c main_arg3) ⟨(j 0).val, hj0⟩
    ⟨5000 * t.val + (j 0).val, by omega⟩ ⟨(j 1).val, hj1⟩
    (fun k => rows_read V c t ⟨(j 0).val, hj0⟩ k ⟨5000 * t.val + (j 0).val, by omega⟩ rfl) (weights_read V c t)

/-- Every row of h lies in the block of the point r / 5000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  let t : Fin cfg0.N := ⟨(i 0).val / 5000, by rw [show cfg0.N = 20 from N_0]; omega⟩
  obtain ⟨-, -, -, -, e4, e5⟩ := idx_facts t
  have e4' : win0_2.index t (0 : Fin 2) = (i 0).val / 5000 := e4
  refine ⟨t, flush0_2 t, ?_⟩
  show i ∈ ((View.whole main_v33).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- After the region h holds the whole product of the arrays the region found. -/
theorem final (c : Dev nD) : (dat0 V c).arrAt 2 cfg0.N = proj (V c main_arg0) (V c main_arg3) :=
  (dat0 V c).arrAt_eq_of_cover 2 (proj (V c main_arg0) (V c main_arg3)) (fun t _ => flushed_eq V c t) cover

end Cert.KernelIdeal.Projection

end
-- ==== Proof.Readout.lean ====
/-
  The second kernel region: the readout out = max(agg + b1, 0) · W2 + b2.

  The aggregated features agg : [100000, 32] are worked in 20 blocks of 5000 consecutive rows. At point t the kernel
  holds rows 5000 t … 5000 t + 4999 of agg, the bias row b1 : [1, 32], the weight column W2 : [32, 1] and the bias
  b2 : [1, 1]; it adds the bias row to every row, takes the positive part, multiplies by W2 (accumulating from zero)
  and adds b2, and writes the result as rows 5000 t … 5000 t + 4999 of out : [100000, 1]. Each of these steps acts on
  every row by itself, so entry (p, 0) of block t's result is entry (5000 t + p, 0) of the same layer applied to the
  whole array; the blocks tile out, so after the last point out is the layer applied to agg (narrowing the operands
  of the product on the way in is the identity on the extended reals).
-/
import proofs.«143941_j35115652612671_1_alg».proof.Proof.Gen.KernelIdeal.Frame
import proofs.«143941_j35115652612671_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Readout

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem bcast_b1 : S1x32.BroadcastsInDim S100000x32 (![0, 1] : Fin 2 → Fin S100000x32.rank) := by decide
theorem bcast_b2 : S1x1.BroadcastsInDim S100000x1 (![0, 1] : Fin 2 → Fin S100000x1.rank) := by decide
theorem bcast_zero : S_.BroadcastsInDim S100000x32 (![] : Fin 0 → Fin S100000x32.rank) := by decide

/-- The layer on the whole array, as the host computes it: max(a + b1, 0) · w2 + b2, the bias rows broadcast down the
    rows. -/
def readout (a : FVec Ideal S100000x32 .f32) (b1 : FVec Ideal S1x32 .f32) (w2 : FVec Ideal S32x1 .f32)
    (b2 : FVec Ideal S1x1 .f32) : FVec Ideal S100000x1 .f32 :=
  addf (Host.dotGeneral (DotDims.plain 100000 32 1) none
      (maximumf (addf a (broadcastInDim S100000x32 ![0, 1] bcast_b1 b1))
        (broadcastInDim S100000x32 ![] bcast_zero (constant (F := Ideal) S_ .f32 0x00000000#32)))
      w2)
    (broadcastInDim S100000x1 ![0, 1] bcast_b2 b2)

theorem hz : (![0, 0] : Fin 2 → Nat) = fun _ => 0 := funext fun a => by fin_cases a <;> rfl

/-- Entry (p, k) of max(block + bias row, 0) is entry (r, k) of max(array + bias row, 0) when the block's row p is the
    array's row r. -/
theorem hidden_entry (x0 : FVec Ideal S5000x32 .f32) (x1 : FVec Ideal S1x32 .f32)
    (A : FVec Ideal S100000x32 .f32)
    (p : Fin 5000) (r : Fin 100000) (k : Fin 32)
    (h0 : x0 (ix2 p k) = A (ix2 r k)) :
    (maximumf (addf (shapeCast S5000x32 x0 shapeCasts_S5000x32_S5000x32)
        (broadcastTo S5000x32 (shapeCast S1x32 x1 shapeCasts_S1x32_S1x32) broadcasts_S1x32_S5000x32))
      (broadcast S5000x32 (Scalar.ofBits (F := Ideal) .f32 0x00000000#32))) (ix2 p k)
    = (maximumf (addf A (broadcastInDim S100000x32 ![0, 1] bcast_b1 x1))
      (broadcastInDim S100000x32 ![] bcast_zero (constant (F := Ideal) S_ .f32 0x00000000#32))) (ix2 r k) :=
  Cert.LibBlocks.biasRelu_apply (n := 5000) (N := 100000) (b := 32) shapeCasts_S5000x32_S5000x32 shapeCasts_S1x32_S1x32
    broadcasts_S1x32_S5000x32 bcast_b1 bcast_zero x0 x1 A x1 p r k h0 rfl

/-- Entry (p, q) of (hidden block) · w2 + b2 is entry (r, q) of (hidden array) · w2 + b2 when the hidden block's row p
    is the hidden array's row r. -/
theorem out_entry (X : FVec Ideal S5000x32 .f32) (XX : FVec Ideal S100000x32 .f32) (x2 : FVec Ideal S32x1 .f32)
    (x3 : FVec Ideal S1x1 .f32) (p : Fin 5000) (r : Fin 100000) (q : Fin 1)
    (hX : ∀ k : Fin 32, X (ix2 p k) = XX (ix2 r k)) :
    addf (matmul dot_S5000x32_S32x1_S5000x1_1_0_0_1_n_n none (truncf .bf16 X bitsLt_bf16_f32) (truncf .bf16 x2 bitsLt_bf16_f32)
        (constant S5000x1 .f32 0x00000000#32))
      (broadcastTo S5000x1 (shapeCast S1x1 x3 shapeCasts_S1x1_S1x1) broadcasts_S1x1_S5000x1) (ix2 p q)
    = addf (Host.dotGeneral (DotDims.plain 100000 32 1) none XX x2) (broadcastInDim S100000x1 ![0, 1] bcast_b2 x3) (ix2 r q) :=
  Cert.LibDenseLayer.out_entry (n := 5000) (N := 100000) (K := 32) (b := 1) dot_S5000x32_S32x1_S5000x1_1_0_0_1_n_n rfl
    (DotDims.plain 100000 32 1) rfl bitsLt_bf16_f32 shapeCasts_S1x1_S1x1 broadcasts_S1x1_S5000x1 bcast_b2 X XX x2 x3 p r hX q

/-- Entry (p, q) of a block's result is entry (r, q) of the layer on the whole array when the block's row p is the
    array's row r. -/
theorem pay_entry (x0 : FVec Ideal S5000x32 .f32) (x1 : FVec Ideal S1x32 .f32) (x2 : FVec Ideal S32x1 .f32) (x3 : FVec Ideal S1x1 .f32)
    (A : FVec Ideal S100000x32 .f32) (b1 : FVec Ideal S1x32 .f32) (w2 : FVec Ideal S32x1 .f32) (b2 : FVec Ideal S1x1 .f32)
    (p : Fin 5000) (r : Fin 100000) (q : Fin 1)
    (h0 : ∀ k : Fin 32, x0 (ix2 p k) = A (ix2 r k)) (h1 : x1 = b1) (h2 : x2 = w2) (h3 : x3 = b2) :
    k1_pay1 x0 x1 x2 x3 (ix2 p q) = readout A b1 w2 b2 (ix2 r q) := by
  subst h1 h2 h3
  unfold k1_pay1 readout
  exact out_entry _ _ x2 x3 p r q (fun k => hidden_entry x0 x1 A p r k (h0 k))

/-- The index maps over the grid: the feature window and the result window sit at block row t, column block 0; the
    other three windows at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the feature block at point t is row 5000 t + p of the feature array. -/
theorem rows_read (c : Dev nD) (t : Fin cfg1.N) (p : Fin 5000) (k : Fin 32) (r : Fin 100000) (hr : r.val = 5000 * t.val + p.val) :
    (iblk1 V c 0 t : Vec Ideal S5000x32 .f32) (ix2 p k) = (V c main_v46 : FVec Ideal S100000x32 .f32) (ix2 r k) := by
  obtain ⟨e0, e1, -⟩ := idx_facts t
  unfold iblk1
  rw [View.read_apply]
  show V c main_v46 (((cfg1.win 0).blk t).view.emb (ix2 p k)) = V c main_v46 (ix2 r k)
  refine congrArg _ ?_
  funext a; apply Fin.ext
  match a with
  | ⟨0, _⟩ => show win1_0.index t (0 : Fin 2) * 5000 + 1 * p.val = r.val; omega
  | ⟨1, _⟩ => show win1_0.index t (1 : Fin 2) * 32 + 1 * k.val = k.val; omega

/-- The first bias window's block is the whole bias row at every point. -/
theorem bias1_read (c : Dev nD) (t : Fin cfg1.N) :
    (iblk1 V c 1 t : Vec Ideal S1x32 .f32) = (V c main_v47 : FVec Ideal S1x32 .f32) := by
  obtain ⟨-, -, e2, e3, -⟩ := idx_facts t
  funext y
  unfold iblk1
  rw [View.read_apply]
  show V c main_v47 (((cfg1.win 1).blk t).view.emb y) = V c main_v47 y
  refine congrArg _ ?_
  funext a; apply Fin.ext
  match a with
  | ⟨0, _⟩ => show win1_1.index t (0 : Fin 2) * 1 + 1 * (y 0).val = (y 0).val; omega
  | ⟨1, _⟩ => show win1_1.index t (1 : Fin 2) * 32 + 1 * (y 1).val = (y 1).val; omega

/-- The weight window's block is the whole weight column at every point. -/
theorem weights_read (c : Dev nD) (t : Fin cfg1.N) :
    (iblk1 V c 2 t : Vec Ideal S32x1 .f32) = (V c main_arg5 : FVec Ideal S32x1 .f32) := by
  obtain ⟨-, -, -, -, e4, e5, -⟩ := idx_facts t
  funext y
  unfold iblk1
  rw [View.read_apply]
  show V c main_arg5 (((cfg1.win 2).blk t).view.emb y) = V c main_arg5 y
  refine congrArg _ ?_
  funext a; apply Fin.ext
  match a with
  | ⟨0, _⟩ => show win1_2.index t (0 : Fin 2) * 32 + 1 * (y 0).val = (y 0).val; omega
  | ⟨1, _⟩ => show win1_2.index t (1 : Fin 2) * 1 + 1 * (y 1).val = (y 1).val; omega

/-- The second bias window's block is the whole bias at every point. -/
theorem bias2_read (c : Dev nD) (t : Fin cfg1.N) :
    (iblk1 V c 3 t : Vec Ideal S1x1 .f32) = (V c main_v48 : FVec Ideal S1x1 .f32) := by
  obtain ⟨-, -, -, -, -, -, e6, e7, -⟩ := idx_facts t
  funext y
  unfold iblk1
  rw [View.read_apply]
  show V c main_v48 (((cfg1.win 3).blk t).view.emb y) = V c main_v48 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 1 + 1 * (y 1).val = (y 1).val; omega

/-- What point t writes back is block t of the layer applied to the arrays the region finds. -/
theorem flushed_eq (c : Dev nD) (t : Fin cfg1.N) :
    (dat1 V c).flushed 4 t
      = ((cfg1.win 4).blk t).view.read (Elt Ideal) (readout (V c main_v46) (V c main_v47) (V c main_arg5) (V c main_v48)) := by
  show (cfg1.win 4).cut (grid1.coords t) ((dat1 V c).after 4 t) = _
  rw [after1_4]
  unfold out1_4
  rw [View.canon_unit_zero hz]
  simp only [View.ld_unit_zero (S := S5000x32) hz, View.ld_unit_zero (S := S1x32) hz, View.ld_unit_zero (S := S32x1) hz,
    View.ld_unit_zero (S := S1x1) hz]
  obtain ⟨-, -, -, -, -, -, -, -, e8, e9⟩ := idx_facts t
  have hN : t.val < 20 := lt_of_lt_of_eq t.isLt N_1
  funext j
  have hj0 : (j 0).val < 5000 := (j 0).isLt
  have hj1 : (j 1).val < 1 := (j 1).isLt
  have hj : (j : S5000x1.Idx) = ix2 (⟨(j 0).val, hj0⟩ : Fin 5000) (⟨(j 1).val, hj1⟩ : Fin 1) := by
    funext a; match a with | ⟨0, _⟩ => rfl | ⟨1, _⟩ => rfl
  show k1_pay1 (iblk1 V c 0 t) (iblk1 V c 1 t) (iblk1 V c 2 t) (iblk1 V c 3 t) j
    = readout (V c main_v46) (V c main_v47) (V c main_arg5) (V c main_v48) (((cfg1.win 4).blk t).view.emb j)
  have hemb : ((cfg1.win 4).blk t).view.emb j
      = ix2 (⟨5000 * t.val + (j 0).val, by omega⟩ : Fin 100000) (⟨(j 1).val, hj1⟩ : Fin 1) := by
    funext a; apply Fin.ext
    match a with
    | ⟨0, _⟩ => show win1_4.index t (0 : Fin 2) * 5000 + 1 * (j 0).val = 5000 * t.val + (j 0).val; omega
    | ⟨1, _⟩ => show win1_4.index t (1 : Fin 2) * 1 + 1 * (j 1).val = (j 1).val; omega
  refine (congrArg (k1_pay1 (iblk1 V c 0 t) (iblk1 V c 1 t) (iblk1 V c 2 t) (iblk1 V c 3 t)) hj).trans ?_
  rw [hemb]
  exact pay_entry (iblk1 V c 0 t) (iblk1 V c 1 t) (iblk1 V c 2 t) (iblk1 V c 3 t)
    (V c main_v46) (V c main_v47) (V c main_arg5) (V c main_v48) ⟨(j 0).val, hj0⟩
    ⟨5000 * t.val + (j 0).val, by omega⟩ ⟨(j 1).val, hj1⟩
    (fun k => rows_read V c t ⟨(j 0).val, hj0⟩ k ⟨5000 * t.val + (j 0).val, by omega⟩ rfl)
    (bias1_read V c t) (weights_read V c t) (bias2_read V c t)

/-- Every row of out lies in the block of the point r / 5000. -/
theorem cover (i : S100000x1.Idx) :
    ∃ t : Fin cfg1.N, (cfg1.win 4).flush t = true ∧ i ∈ ((cfg1.win 4).blk t).view.set := by
  have hi0 : (i 0).val < 100000 := (i 0).isLt
  have hi1 : (i 1).val < 1 := (i 1).isLt
  let t : Fin cfg1.N := ⟨(i 0).val / 5000, by rw [show cfg1.N = 20 from N_1]; omega⟩
  obtain ⟨-, -, -, -, -, -, -, -, e8, e9⟩ := idx_facts t
  have e8' : win1_4.index t (0 : Fin 2) = (i 0).val / 5000 := e8
  refine ⟨t, flush1_4 t, ?_⟩
  show i ∈ ((View.whole main_v49).slice (win1_4.rect t)).set
  rw [View.set_slice_whole, Rect.mem_set_unit]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 1 ≤ (i 1).val ∧ (i 1).val < win1_4.index t (1 : Fin 2) * 1 + 1; omega

/-- After the region out holds the layer applied to the arrays the region found. -/
theorem final (c : Dev nD) :
    (dat1 V c).arrAt 4 cfg1.N = readout (V c main_v46) (V c main_v47) (V c main_arg5) (V c main_v48) :=
  (dat1 V c).arrAt_eq_of_cover 4 (readout (V c main_v46) (V c main_v47) (V c main_arg5) (V c main_v48))
    (fun t _ => flushed_eq V c t) cover

end Cert.KernelIdeal.Readout

end
-- ==== Proof.RefValue.lean ====
/-
  The reference, read as three layers.

  The reference computes, in order: the projection h = x · W1; the aggregation agg = A(edge_index, edge_weight, h) —
  the symmetric normalisation of the edge weights with self-loops, the gather of the source rows of h scaled by it, and
  the sum of the scaled rows into their target rows —; and the readout max(agg + b1, 0) · W2 + b2. Only the middle
  layer looks at the edges, and it is the same chain of host operations in the kernel's program; it is carried here as
  one function `agg` of (edge_index, edge_weight, h) and never opened.
-/
import proofs.«143941_j35115652612671_1_alg».proof.Proof.Gen.ReferenceIdeal.Read
import proofs.«143941_j35115652612671_1_alg».proof.Proof.Projection
import proofs.«143941_j35115652612671_1_alg».proof.Proof.Readout

set_option maxRecDepth 16384

noncomputable section

namespace Cert.ReferenceIdeal.Layers

open Idealize.ShloMosaic Idealize.ShloMosaic.TcCoe
open Cert.ReferenceIdeal Cert.ReferenceIdeal.Gen Cert.ReferenceIdeal.Read

/-- The aggregation layer as a function of the edge list, the edge weights and the projected features: the scaled
    source rows of h summed into their target rows. -/
def agg (x1 : (⟨S2x3200000, .i32⟩ : BufTy).Contents (Elt Ideal)) (x2 : (⟨S3200000, .f32⟩ : BufTy).Contents (Elt Ideal))
    (h : FVec Ideal S100000x32 .f32) : FVec Ideal S100000x32 .f32 :=
  Host.scatterAdd (F := Ideal) (φ := .f32) scatter_S100000x32_S3300000x1_S3300000x32_1_0_0_1 (val_main_v44 (F := Ideal)) (val_main_v45 (F := Ideal) x1)
    (mulf (F := Ideal) (φ := .f32) (val_main_v42 (F := Ideal) x1 x2)
      (Host.gather gather_S100000x32_S3300000x1_S3300000x32_1_0_n_n_0_1_132 h (val_main_v40 (F := Ideal) x1)))

/-- The reference's aggregated features are `agg` of its projection. -/
theorem v46_eq (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x32, .f32⟩ : BufTy).Contents (Elt Ideal)) :
    val_main_v46 (F := Ideal) x0 x1 x2 x3 = agg x1 x2 (Cert.KernelIdeal.Projection.proj x0 x3) := by
  unfold val_main_v46 val_main_v43 val_main_v41 val_main_v33 agg Cert.KernelIdeal.Projection.proj
  rfl

/-- The reference's result is the readout of the aggregation of the projection, its two bias vectors laid as rows. -/
theorem result_eq (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x32, .f32⟩ : BufTy).Contents (Elt Ideal))
    (x4 : (⟨S32, .f32⟩ : BufTy).Contents (Elt Ideal)) (x5 : (⟨S32x1, .f32⟩ : BufTy).Contents (Elt Ideal))
    (x6 : (⟨S1, .f32⟩ : BufTy).Contents (Elt Ideal)) :
    val_main_v54 (F := Ideal) x0 x1 x2 x3 x4 x5 x6
      = Cert.KernelIdeal.Readout.readout (agg x1 x2 (Cert.KernelIdeal.Projection.proj x0 x3))
          (broadcastInDim S1x32 ![1] bcast_S32_S1x32_1 x4) x5 (broadcastInDim S1x1 ![1] bcast_S1_S1x1_1 x6) := by
  unfold val_main_v54 val_main_v53 val_main_v52 val_main_v51 val_main_v50 val_main_v49 val_main_v48 val_main_v47
    val_main_call1_v0 val_main_call1_cst
  rw [v46_eq x0 x1 x2 x3]
  generalize agg x1 x2 (Cert.KernelIdeal.Projection.proj x0 x3) = a
  unfold Cert.KernelIdeal.Readout.readout
  rfl

end Cert.ReferenceIdeal.Layers

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.HostSide.lean ====
/-
  The kernel program's host side: what its two regions find, and what its result is.

  Between the launch and the first region the program builds, from edge_index and edge_weight, the target and source
  index lists with self-loops (row, col), the weights with ones appended, the degree of every node, its inverse square
  root where the degree is positive, and the per-edge normalisation norm = dinv[row] · w · dinv[col]; these are, operation
  for operation, the reference's first stages. The first region then leaves h = x · W1. Between the regions the program
  gathers the source rows of h, scales them by norm and sums them into their target rows: the aggregation layer `agg`,
  the same chain as the reference's; it also lays the two bias vectors as rows, by a reshape where the reference
  broadcasts along a new axis of length one — the same array. The second region leaves the readout of what it finds.
  So the result buffer ends at readout (agg (edge_index, edge_weight, x · W1), b1 as a row, W2, b2 as a row), which is
  the reference's result term.
-/
import proofs.«143941_j35115652612671_1_alg».proof.Proof.Gen.KernelIdeal.Frame
import proofs.«143941_j35115652612671_1_alg».proof.Proof.Gen.ReferenceIdeal.Read
import proofs.«143941_j35115652612671_1_alg».proof.Proof.Projection
import proofs.«143941_j35115652612671_1_alg».proof.Proof.Readout
import proofs.«143941_j35115652612671_1_alg».proof.Proof.RefValue
import proofs.«143941_j35115652612671_1_alg».proof.Proof.LibLayout
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen
open Cert.ReferenceIdeal.Read (val_main_v5 val_main_v6 val_main_v8 val_main_v13 val_main_v15 val_main_cst_3 val_main_v16 val_main_v32)
open Cert.ReferenceIdeal.Layers (agg)
open Cert.KernelIdeal.Projection (proj)
open Cert.KernelIdeal.Readout (readout)

/-- The contents of edge_index, of edge_weight and of the projected features, as the reference's stages take them. -/
abbrev EdgeIndex := (⟨Cert.ReferenceIdeal.S2x3200000, .i32⟩ : BufTy).Contents (Elt Ideal)
abbrev EdgeWeight := (⟨Cert.ReferenceIdeal.S3200000, .f32⟩ : BufTy).Contents (Elt Ideal)
abbrev Hidden := FVec Ideal Cert.ReferenceIdeal.S100000x32 .f32

/-! ## The stretches of host operations, each from any contents `Wv` -/

section Stretches

variable (Wv : Valuation τ sig (Elt Ideal))

/-- From the launch to the degree test: the target list with self-loops, … -/
theorem first_row (x1 : EdgeIndex) (h1 : Wv (Proc.devRef .tc main_arg1) = x1) :
    StableHlo.after hostOps0 Wv (Proc.devRef .tc main_v5) = val_main_v5 (F := Ideal) x1 := by
  subst h1; after_results; rfl
/-- … the source list with self-loops, … -/
theorem first_col (x1 : EdgeIndex) (h1 : Wv (Proc.devRef .tc main_arg1) = x1) :
    StableHlo.after hostOps0 Wv (Proc.devRef .tc main_v6) = val_main_v6 (F := Ideal) x1 := by
  subst h1; after_results; rfl
/-- … the weights with the self-loops' ones, … -/
theorem first_w (x2 : EdgeWeight) (h2 : Wv (Proc.devRef .tc main_arg2) = x2) :
    StableHlo.after hostOps0 Wv (Proc.devRef .tc main_v8) = val_main_v8 (F := Ideal) x2 := by
  subst h2; after_results; rfl
/-- … the test deg > 0, … -/
theorem first_pos (x1 : EdgeIndex) (x2 : EdgeWeight) (h1 : Wv (Proc.devRef .tc main_arg1) = x1) (h2 : Wv (Proc.devRef .tc main_arg2) = x2) :
    StableHlo.after hostOps0 Wv (Proc.devRef .tc main_v13) = val_main_v13 (F := Ideal) x1 x2 := by
  subst h1 h2; after_results; rfl
/-- … the power deg ^ (-1/2), … -/
theorem first_pow (x1 : EdgeIndex) (x2 : EdgeWeight) (h1 : Wv (Proc.devRef .tc main_arg1) = x1) (h2 : Wv (Proc.devRef .tc main_arg2) = x2) :
    StableHlo.after hostOps0 Wv (Proc.devRef .tc main_v15) = val_main_v15 (F := Ideal) x1 x2 := by
  subst h1 h2; after_results; rfl
/-- … and the zero the test's other branch takes. -/
theorem first_zero :
    StableHlo.after hostOps0 Wv (Proc.devRef .tc main_cst_3) = val_main_cst_3 (F := Ideal) := by
  after_results; rfl

/-- The selection: dinv = deg ^ (-1/2) where deg > 0, else 0. -/
theorem second_dinv (x1 : EdgeIndex) (x2 : EdgeWeight)
    (h13 : Wv (Proc.devRef .tc main_v13) = val_main_v13 (F := Ideal) x1 x2)
    (h15 : Wv (Proc.devRef .tc main_v15) = val_main_v15 (F := Ideal) x1 x2)
    (hc : Wv (Proc.devRef .tc main_cst_3) = val_main_cst_3 (F := Ideal)) :
    StableHlo.after hostOps0_1 Wv (Proc.devRef .tc main_v16) = val_main_v16 (F := Ideal) x1 x2 := by
  after_results_simp
  show select (Wv (Proc.devRef .tc main_v13)) (Wv (Proc.devRef .tc main_v15))
    (broadcastInDim S100000 ![] bcast_S_S100000 (id (Wv (Proc.devRef .tc main_cst_3)))) = _
  rw [h13, h15, hc]; rfl
theorem second_keeps_row : StableHlo.after hostOps0_1 Wv (Proc.devRef .tc main_v5) = Wv (Proc.devRef .tc main_v5) := by
  after_results_simp
theorem second_keeps_col : StableHlo.after hostOps0_1 Wv (Proc.devRef .tc main_v6) = Wv (Proc.devRef .tc main_v6) := by
  after_results_simp
theorem second_keeps_w : StableHlo.after hostOps0_1 Wv (Proc.devRef .tc main_v8) = Wv (Proc.devRef .tc main_v8) := by
  after_results_simp

/-- The normalisation: norm = dinv[row] · w · dinv[col]. -/
theorem third_norm (x1 : EdgeIndex) (x2 : EdgeWeight)
    (h16 : Wv (Proc.devRef .tc main_v16) = val_main_v16 (F := Ideal) x1 x2)
    (h5 : Wv (Proc.devRef .tc main_v5) = val_main_v5 (F := Ideal) x1)
    (h6 : Wv (Proc.devRef .tc main_v6) = val_main_v6 (F := Ideal) x1)
    (h8 : Wv (Proc.devRef .tc main_v8) = val_main_v8 (F := Ideal) x2) :
    StableHlo.after hostOps0_2 Wv (Proc.devRef .tc main_v32) = val_main_v32 (F := Ideal) x1 x2 := by
  after_results_simp; rw [h16, h5, h6, h8]; rfl

theorem third_keeps_row : StableHlo.after hostOps0_2 Wv (Proc.devRef .tc main_v5) = Wv (Proc.devRef .tc main_v5) := by
  after_results_simp
theorem third_keeps_col : StableHlo.after hostOps0_2 Wv (Proc.devRef .tc main_v6) = Wv (Proc.devRef .tc main_v6) := by
  after_results_simp

/-- Between the regions: the aggregation of the projected features the first region left. -/
theorem fourth_agg (x1 : EdgeIndex) (x2 : EdgeWeight) (h : Hidden)
    (h5 : Wv (Proc.devRef .tc main_v5) = val_main_v5 (F := Ideal) x1)
    (h6 : Wv (Proc.devRef .tc main_v6) = val_main_v6 (F := Ideal) x1)
    (h32 : Wv (Proc.devRef .tc main_v32) = val_main_v32 (F := Ideal) x1 x2)
    (h33 : Wv (Proc.devRef .tc main_v33) = h) :
    StableHlo.after hostOps1 Wv (Proc.devRef .tc main_v46) = agg x1 x2 h := by
  subst h33; after_results_simp; rw [h5, h6, h32]; rfl
/-- The first bias vector laid as a row. -/
theorem fourth_b1 :
    StableHlo.after hostOps1 Wv (Proc.devRef .tc main_v47) = shapeCast S1x32 (Wv (Proc.devRef .tc main_arg4)) shapeCasts_S32_S1x32 := by
  after_results_simp; rfl
/-- The second bias laid as a row. -/
theorem fourth_b2 :
    StableHlo.after hostOps1 Wv (Proc.devRef .tc main_v48) = shapeCast S1x1 (Wv (Proc.devRef .tc main_arg6)) shapeCasts_S1_S1x1 := by
  after_results_simp; rfl
theorem fourth_keeps_w2 : StableHlo.after hostOps1 Wv (Proc.devRef .tc main_arg5) = Wv (Proc.devRef .tc main_arg5) := by
  after_results_simp

end Stretches

/-! ## One device's run -/

section Device

variable (m : (ℓ : Loc nD τ sig) → Buf (Elt Ideal) ℓ) (ρ : Dev nD → PrngReg) (c : Dev nD)

/-- No host operation before the first region writes an argument's buffer. -/
theorem entry_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl
theorem entry_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem entry_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl
theorem entry_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl
theorem entry_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results <;> rfl

/-- What the first region finds beside its operands: the target list, … -/
theorem entry_row : W3 m ρ c (Proc.devRef .tc main_v5) = val_main_v5 (F := Ideal) (m ((c : Thread nD τ).loc main_arg1)) :=
  (third_keeps_row (W2 m ρ c)).trans ((second_keeps_row (W1 m ρ c)).trans (first_row (W0 m ρ c) _ rfl))
/-- … the source list, … -/
theorem entry_col : W3 m ρ c (Proc.devRef .tc main_v6) = val_main_v6 (F := Ideal) (m ((c : Thread nD τ).loc main_arg1)) :=
  (third_keeps_col (W2 m ρ c)).trans ((second_keeps_col (W1 m ρ c)).trans (first_col (W0 m ρ c) _ rfl))
/-- … and the normalisation. -/
theorem entry_norm : W3 m ρ c (Proc.devRef .tc main_v32)
    = val_main_v32 (F := Ideal) (m ((c : Thread nD τ).loc main_arg1)) (m ((c : Thread nD τ).loc main_arg2)) :=
  third_norm (W2 m ρ c) _ _
    (second_dinv (W1 m ρ c) _ _ (first_pos (W0 m ρ c) _ _ rfl rfl) (first_pow (W0 m ρ c) _ _ rfl rfl) (first_zero (W0 m ρ c)))
    ((second_keeps_row (W1 m ρ c)).trans (first_row (W0 m ρ c) _ rfl))
    ((second_keeps_col (W1 m ρ c)).trans (first_col (W0 m ρ c) _ rfl))
    ((second_keeps_w (W1 m ρ c)).trans (first_w (W0 m ρ c) _ rfl))

/-- After the first region the projected features hold x · W1. -/
theorem exit_h : W4 m ρ c (Proc.devRef .tc main_v33)
    = proj (m ((c : Thread nD τ).loc main_arg0)) (m ((c : Thread nD τ).loc main_arg3)) := by
  refine (W4_arr m ρ c 2).trans ((Cert.KernelIdeal.Projection.final (V3 m ρ) c).trans ?_)
  show proj (W3 m ρ c (Proc.devRef .tc main_arg0)) (W3 m ρ c (Proc.devRef .tc main_arg3)) = _
  rw [entry_arg0 m ρ c, entry_arg3 m ρ c]

/-- The aggregated features the second region finds. -/
theorem entry2_agg : V5 m ρ c main_v46
    = agg (m ((c : Thread nD τ).loc main_arg1)) (m ((c : Thread nD τ).loc main_arg2))
        (proj (m ((c : Thread nD τ).loc main_arg0)) (m ((c : Thread nD τ).loc main_arg3))) :=
  fourth_agg (W4 m ρ c) _ _ _
    ((W4_of_ne m ρ c main_v5 (by decide)).trans (entry_row m ρ c))
    ((W4_of_ne m ρ c main_v6 (by decide)).trans (entry_col m ρ c))
    ((W4_of_ne m ρ c main_v32 (by decide)).trans (entry_norm m ρ c))
    (exit_h m ρ c)

/-- The first bias row the second region finds: b1 along a new leading axis of length one. -/
theorem entry2_b1 : V5 m ρ c main_v47
    = broadcastInDim Cert.ReferenceIdeal.S1x32 ![1] Cert.ReferenceIdeal.Gen.bcast_S32_S1x32_1 (m ((c : Thread nD τ).loc main_arg4)) := by
  refine (fourth_b1 (W4 m ρ c)).trans ?_
  rw [(W4_of_ne m ρ c main_arg4 (by decide)).trans (entry_arg4 m ρ c)]
  exact Cert.Proof.Layout.reshape_row_eq_broadcastInDim (n := 32) (m ((c : Thread nD τ).loc main_arg4)) _ _

/-- The second bias row the second region finds. -/
theorem entry2_b2 : V5 m ρ c main_v48
    = broadcastInDim Cert.ReferenceIdeal.S1x1 ![1] Cert.ReferenceIdeal.Gen.bcast_S1_S1x1_1 (m ((c : Thread nD τ).loc main_arg6)) := by
  refine (fourth_b2 (W4 m ρ c)).trans ?_
  rw [(W4_of_ne m ρ c main_arg6 (by decide)).trans (entry_arg6 m ρ c)]
  exact Cert.Proof.Layout.reshape_row_eq_broadcastInDim (n := 1) (m ((c : Thread nD τ).loc main_arg6)) _ _

/-- The weight column the second region finds. -/
theorem entry2_w2 : V5 m ρ c main_arg5 = m ((c : Thread nD τ).loc main_arg5) :=
  (fourth_keeps_w2 (W4 m ρ c)).trans ((W4_of_ne m ρ c main_arg5 (by decide)).trans (entry_arg5 m ρ c))

/-- The result buffer after the run: the readout of the aggregation of the projection. -/
theorem result_eq : W6 m ρ c (Proc.devRef .tc main_v49)
    = readout
        (agg (m ((c : Thread nD τ).loc main_arg1)) (m ((c : Thread nD τ).loc main_arg2))
          (proj (m ((c : Thread nD τ).loc main_arg0)) (m ((c : Thread nD τ).loc main_arg3))))
        (broadcastInDim Cert.ReferenceIdeal.S1x32 ![1] Cert.ReferenceIdeal.Gen.bcast_S32_S1x32_1 (m ((c : Thread nD τ).loc main_arg4)))
        (m ((c : Thread nD τ).loc main_arg5))
        (broadcastInDim Cert.ReferenceIdeal.S1x1 ![1] Cert.ReferenceIdeal.Gen.bcast_S1_S1x1_1 (m ((c : Thread nD τ).loc main_arg6))) := by
  refine (W6_arr m ρ c 4).trans ((Cert.KernelIdeal.Readout.final (V5 m ρ) c).trans ?_)
  rw [entry2_agg m ρ c, entry2_b1 m ρ c, entry2_w2 m ρ c, entry2_b2 m ρ c]

end Device

end Cert.KernelIdeal.HostSide

end
-- ==== Proof.lean ====
/-
  A graph-convolution layer followed by a readout, against its plain reference:

      h   = x · W1                                  (projection of the node features)
      agg = A(edge_index, edge_weight, h)           (normalised sum of neighbours' rows, self-loops added)
      out = max(agg + b1, 0) · W2 + b2              (bias, positive part, readout)

  The kernel's program computes h and out in two pipelined kernel regions over 20 blocks of 5000 rows each, and agg by
  the same host operations as the reference. On the extended reals both programs compute the same three layers:

  * each region's result array is the layer applied to the whole array it finds, because every step of the layer
    (a matrix product from a zero accumulator, a bias row broadcast down the rows, the positive part) acts on each row
    by itself and the row blocks tile the array; narrowing the product's operands on the way in is the identity here;
  * the aggregation is one and the same function of (edge_index, edge_weight, h) on both sides and is never opened;
  * the kernel lays each bias vector as a row by a reshape, the reference by a broadcast along a new axis of length
    one: the same array.

  The equality needs no finiteness: no algebraic law is used beyond reading both matrix products as the same sum.
  The ideal pass rewrote nothing, so the idealised kernel is the kernel's own text read on the extended reals.
-/
import proofs.«143941_j35115652612671_1_alg».proof.Defs
import proofs.«143941_j35115652612671_1_alg».proof.Proof.Gen.Kernel
import proofs.«143941_j35115652612671_1_alg».proof.Proof.Gen.Kernel.Frame
import proofs.«143941_j35115652612671_1_alg».proof.Proof.Gen.KernelIdeal
import proofs.«143941_j35115652612671_1_alg».proof.Proof.Gen.KernelIdeal.Frame
import proofs.«143941_j35115652612671_1_alg».proof.Proof.Gen.ReferenceIdeal
import proofs.«143941_j35115652612671_1_alg».proof.Proof.Gen.ReferenceIdeal.Run
import proofs.«143941_j35115652612671_1_alg».proof.Proof.Gen.ReferenceIdeal.Read
import proofs.«143941_j35115652612671_1_alg».proof.Proof.Gen.Pre_finite_inputs
import proofs.«143941_j35115652612671_1_alg».proof.Proof.KernelRun
import proofs.«143941_j35115652612671_1_alg».proof.Proof.RefValue
import proofs.«143941_j35115652612671_1_alg».proof.Proof.HostSide
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the readout of the aggregation of the projection of the same arguments. -/
theorem algebraic : Cert.algebraic_KernelIdeal_ReferenceIdeal := by
  intro m ρ m' ρ' _ hagree
  refine ⟨fun c => Cert.KernelIdeal.Gen.W6 m ρ c (Proc.devRef .tc Cert.KernelIdeal.main_v49),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v54_eq, Cert.ReferenceIdeal.Layers.result_eq, a0, a1, a2, a3, a4, a5, a6]
  exact (Cert.KernelIdeal.HostSide.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
